-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x88 : Shape := ⟨2, ![200000, 88]⟩
abbrev S200000x6 : Shape := ⟨2, ![200000, 6]⟩
abbrev S_ : Shape := ⟨0, ![]⟩

class Facts : Prop where
  bcast_S_S200000x88 : S_.BroadcastsInDim S200000x88 (![] : Fin 0 → Fin S200000x88.rank)
  reducesTo_S200000x88_S_d0_1 : S200000x88.ReducesTo [0, 1] S_
  h_S_ : 0 < S_.numel
  bcast_S_S200000x6 : S_.BroadcastsInDim S200000x6 (![] : Fin 0 → Fin S200000x6.rank)
  reducesTo_S200000x6_S_d0_1 : S200000x6.ReducesTo [0, 1] S_

variable [Facts]

def fn_part1 {F : FTy → Type} [FloatOps F] (main_arg4 : FVec F S200000x88 .f32) (main_arg5 : FVec F S200000x88 .f32) (main_v13 : IVec S_ 1) (main_v16 : IVec S200000x6 1) : IVec S_ 1 :=
  let main_c_5 : IVec S_ 1 := constantI S_ 1 1#1
  let main_v17 : IVec S_ 1 := (fun x v => Host.reduce IntOp.andi x v reducesTo_S200000x6_S_d0_1 h_S_) main_v16 main_c_5
  let main_v18 : IVec S_ 1 := andi main_v13 main_v17
  let main_v19 : FVec F S200000x88 .f32 := Host.absf main_arg4
  let main_cst_6 : FVec F S_ .f32 := constant S_ .f32 0x7F800000#32
  let main_v20 : FVec F S200000x88 .f32 := broadcastInDim S200000x88 ![] bcast_S_S200000x88 main_cst_6
  let main_v21 : IVec S200000x88 1 := cmpf .olt main_v19 main_v20
  let main_c_7 : IVec S_ 1 := constantI S_ 1 1#1
  let main_v22 : IVec S_ 1 := (fun x v => Host.reduce IntOp.andi x v reducesTo_S200000x88_S_d0_1 h_S_) main_v21 main_c_7
  let main_v23 : IVec S_ 1 := andi main_v18 main_v22
  let main_v24 : FVec F S200000x88 .f32 := Host.absf main_arg5
  let main_cst_8 : FVec F S_ .f32 := constant S_ .f32 0x7F800000#32
  let main_v25 : FVec F S200000x88 .f32 := broadcastInDim S200000x88 ![] bcast_S_S200000x88 main_cst_8
  let main_v26 : IVec S200000x88 1 := cmpf .olt main_v24 main_v25
  let main_c_9 : IVec S_ 1 := constantI S_ 1 1#1
  let main_v27 : IVec S_ 1 := (fun x v => Host.reduce IntOp.andi x v reducesTo_S200000x88_S_d0_1 h_S_) main_v26 main_c_9
  let main_v28 : IVec S_ 1 := andi main_v23 main_v27
  main_v28

def fn {F : FTy → Type} [FloatOps F] (main_arg0 : FVec F S200000x88 .f32) (main_arg1 : FVec F S200000x6 .f32) (main_arg2 : FVec F S200000x6 .f32) (main_arg3 : FVec F S200000x6 .f32) (main_arg4 : FVec F S200000x88 .f32) (main_arg5 : FVec F S200000x88 .f32) : IVec S_ 1 :=
  let main_v0 : FVec F S200000x88 .f32 := Host.absf main_arg0
  let main_cst : FVec F S_ .f32 := constant S_ .f32 0x7F800000#32
  let main_v1 : FVec F S200000x88 .f32 := broadcastInDim S200000x88 ![] bcast_S_S200000x88 main_cst
  let main_v2 : IVec S200000x88 1 := cmpf .olt main_v0 main_v1
  let main_c : IVec S_ 1 := constantI S_ 1 1#1
  let main_v3 : IVec S_ 1 := (fun x v => Host.reduce IntOp.andi x v reducesTo_S200000x88_S_d0_1 h_S_) main_v2 main_c
  let main_v4 : FVec F S200000x6 .f32 := Host.absf main_arg1
  let main_cst_0 : FVec F S_ .f32 := constant S_ .f32 0x7F800000#32
  let main_v5 : FVec F S200000x6 .f32 := broadcastInDim S200000x6 ![] bcast_S_S200000x6 main_cst_0
  let main_v6 : IVec S200000x6 1 := cmpf .olt main_v4 main_v5
  let main_c_1 : IVec S_ 1 := constantI S_ 1 1#1
  let main_v7 : IVec S_ 1 := (fun x v => Host.reduce IntOp.andi x v reducesTo_S200000x6_S_d0_1 h_S_) main_v6 main_c_1
  let main_v8 : IVec S_ 1 := andi main_v3 main_v7
  let main_v9 : FVec F S200000x6 .f32 := Host.absf main_arg2
  let main_cst_2 : FVec F S_ .f32 := constant S_ .f32 0x7F800000#32
  let main_v10 : FVec F S200000x6 .f32 := broadcastInDim S200000x6 ![] bcast_S_S200000x6 main_cst_2
  let main_v11 : IVec S200000x6 1 := cmpf .olt main_v9 main_v10
  let main_c_3 : IVec S_ 1 := constantI S_ 1 1#1
  let main_v12 : IVec S_ 1 := (fun x v => Host.reduce IntOp.andi x v reducesTo_S200000x6_S_d0_1 h_S_) main_v11 main_c_3
  let main_v13 : IVec S_ 1 := andi main_v8 main_v12
  let main_v14 : FVec F S200000x6 .f32 := Host.absf main_arg3
  let main_cst_4 : FVec F S_ .f32 := constant S_ .f32 0x7F800000#32
  let main_v15 : FVec F S200000x6 .f32 := broadcastInDim S200000x6 ![] bcast_S_S200000x6 main_cst_4
  let main_v16 : IVec S200000x6 1 := cmpf .olt main_v14 main_v15
  fn_part1 (F := F) main_arg4 main_arg5 main_v13 main_v16
-- ==== Kernel.lean ====
abbrev S200000x88 : Shape := ⟨2, ![200000, 88]⟩
abbrev S200000x6 : Shape := ⟨2, ![200000, 6]⟩
abbrev S1x12800 : Shape := ⟨2, ![1, 12800]⟩
abbrev S2000x88 : Shape := ⟨2, ![2000, 88]⟩
abbrev S2000x6 : Shape := ⟨2, ![2000, 6]⟩
abbrev S1x128 : Shape := ⟨2, ![1, 128]⟩
abbrev S2000x5 : Shape := ⟨2, ![2000, 5]⟩
abbrev S2000 : Shape := ⟨1, ![2000]⟩
abbrev S2000x1 : Shape := ⟨2, ![2000, 1]⟩
abbrev S1 : Shape := ⟨1, ![1]⟩
abbrev S1x1 : Shape := ⟨2, ![1, 1]⟩
abbrev S88 : Shape := ⟨1, ![88]⟩
abbrev S1x88 : Shape := ⟨2, ![1, 88]⟩
abbrev S1x36 : Shape := ⟨2, ![1, 36]⟩
abbrev S100x128 : Shape := ⟨2, ![100, 128]⟩
abbrev S100x88 : Shape := ⟨2, ![100, 88]⟩
abbrev S_ : Shape := ⟨0, ![]⟩
abbrev S100x1 : Shape := ⟨2, ![100, 1]⟩
abbrev S100 : Shape := ⟨1, ![100]⟩

abbrev nBuf : Space → Nat
  | .hbm => 42
  | .vmem => 12
  | .smem => 0
  | _ => 0

abbrev bufTy : (tb : Table) → Fin (tcTables nBuf tb) → BufTy
  | .hbm, ⟨0, _⟩ => ⟨S200000x88, .f32⟩
  | .hbm, ⟨1, _⟩ => ⟨S200000x6, .f32⟩
  | .hbm, ⟨2, _⟩ => ⟨S200000x6, .f32⟩
  | .hbm, ⟨3, _⟩ => ⟨S200000x6, .f32⟩
  | .hbm, ⟨4, _⟩ => ⟨S200000x88, .f32⟩
  | .hbm, ⟨5, _⟩ => ⟨S200000x88, .f32⟩
  | .hbm, ⟨6, _⟩ => ⟨S1x12800, .f32⟩
  | .hbm, ⟨7, _⟩ => ⟨S100x128, .f32⟩
  | .hbm, ⟨8, _⟩ => ⟨S100x88, .f32⟩
  | .hbm, ⟨9, _⟩ => ⟨S_, .f32⟩
  | .hbm, ⟨10, _⟩ => ⟨S88, .f32⟩
  | .hbm, ⟨11, _⟩ => ⟨S100x1, .f32⟩
  | .hbm, ⟨12, _⟩ => ⟨S100, .f32⟩
  | .hbm, ⟨13, _⟩ => ⟨S_, .f32⟩
  | .hbm, ⟨14, _⟩ => ⟨S_, .f32⟩
  | .hbm, ⟨15, _⟩ => ⟨S100x1, .f32⟩
  | .hbm, ⟨16, _⟩ => ⟨S100, .f32⟩
  | .hbm, ⟨17, _⟩ => ⟨S_, .f32⟩
  | .hbm, ⟨18, _⟩ => ⟨S_, .f32⟩
  | .hbm, ⟨19, _⟩ => ⟨S100x1, .f32⟩
  | .hbm, ⟨20, _⟩ => ⟨S100, .f32⟩
  | .hbm, ⟨21, _⟩ => ⟨S_, .f32⟩
  | .hbm, ⟨22, _⟩ => ⟨S_, .f32⟩
  | .hbm, ⟨23, _⟩ => ⟨S100x1, .f32⟩
  | .hbm, ⟨24, _⟩ => ⟨S100, .f32⟩
  | .hbm, ⟨25, _⟩ => ⟨S_, .f32⟩
  | .hbm, ⟨26, _⟩ => ⟨S_, .f32⟩
  | .hbm, ⟨27, _⟩ => ⟨S88, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S2000x88, .f32⟩
  | .local _ .vmem, ⟨1, _⟩ => ⟨S2000x88, .f32⟩
  | .local _ .vmem, ⟨2, _⟩ => ⟨S2000x88, .f32⟩
  | .local _ .vmem, ⟨3, _⟩ => ⟨S2000x88, .f32⟩
  | .local _ .vmem, ⟨4, _⟩ => ⟨S2000x88, .f32⟩
  | .local _ .vmem, ⟨5, _⟩ => ⟨S2000x88, .f32⟩
  | .local _ .vmem, ⟨6, _⟩ => ⟨S2000x6, .f32⟩
  | .local _ .vmem, ⟨7, _⟩ => ⟨S2000x6, .f32⟩
  | .local _ .vmem, ⟨8, _⟩ => ⟨S2000x6, .f32⟩
  | .local _ .vmem, ⟨9, _⟩ => ⟨S2000x6, .f32⟩
  | .local _ .vmem, ⟨10, _⟩ => ⟨S1x128, .f32⟩
  | .local _ .vmem, ⟨11, _⟩ => ⟨S1x128, .f32⟩
  | _, _ => ⟨S200000x88, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_v23 : Ref sig .tc := ⟨.hbm, 38, rfl⟩
abbrev main_cst_8 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2000x88 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x88 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x88 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x6 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x6 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S2000x88_S2000x88_0_0 : ∀ a, (![0, 0] : Fin 2 → Nat) a + S2000x88.size a ≤ S2000x88.size a
  h_S2000x88 : 0 < S2000x88.numel
  inb_S2000x6_S2000x6_0_0 : ∀ a, (![0, 0] : Fin 2 → Nat) a + S2000x6.size a ≤ S2000x6.size a
  h_S2000x6 : 0 < S2000x6.numel
  slices_S2000x6_o0_0_S2000x5 : S2000x6.Slices ![0, 0] S2000x5
  reduces_S2000x5_S2000 : S2000x5.Reduces [1] S2000
  shapeCasts_S2000_S2000x1 : S2000.ShapeCasts S2000x1
  reduces_S2000x1_S1 : S2000x1.Reduces [0] S1
  shapeCasts_S1_S1x1 : S1.ShapeCasts S1x1
  reduces_S2000x88_S88 : S2000x88.Reduces [0] S88
  shapeCasts_S88_S1x88 : S88.ShapeCasts S1x88
  reduces_S2000x88_S2000 : S2000x88.Reduces [1] S2000
  concatenates_S1x88_S1x1_S1x1_S1x1_S1x1_S1x36_S1x128_d1 : Shape.Concatenates [S1x88, S1x1, S1x1, S1x1, S1x1, S1x36] S1x128 1
  inb_S1x128_S1x128_0_0 : ∀ a, (![0, 0] : Fin 2 → Nat) a + S1x128.size a ≤ S1x128.size a
  h_S1x128 : 0 < S1x128.numel
  shapeCasts_S1x12800_S100x128 : S1x12800.ShapeCasts S100x128
  slices_S100x128_S100x88_0_0 : S100x128.Slices ![0, 0] S100x88
  reducesTo_S100x88_S88_d0 : S100x88.ReducesTo [0] S88
  h_S_ : 0 < S_.numel
  slices_S100x128_S100x1_0_88 : S100x128.Slices ![0, 88] S100x1
  shapeCasts_S100x1_S100 : S100x1.ShapeCasts S100
  reducesTo_S100_S_d0 : S100.ReducesTo [0] S_
  slices_S100x128_S100x1_0_89 : S100x128.Slices ![0, 89] S100x1
  slices_S100x128_S100x1_0_90 : S100x128.Slices ![0, 90] S100x1
  slices_S100x128_S100x1_0_91 : S100x128.Slices ![0, 91] S100x1
  reducesTo_S88_S_d0 : S88.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x88.size a ≤ S200000x88.size a
  hwx0_0 : ∀ i : grid0.Coords, EltTy.bits .f32 = 32 ∨ (Rect.block (s := S200000x88) S2000x88.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x88.size a ≤ S200000x88.size a
  hwx0_1 : ∀ i : grid0.Coords, EltTy.bits .f32 = 32 ∨ (Rect.block (s := S200000x88) S2000x88.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x88.size a ≤ S200000x88.size a
  hwx0_2 : ∀ i : grid0.Coords, EltTy.bits .f32 = 32 ∨ (Rect.block (s := S200000x88) S2000x88.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x6.size a ≤ S200000x6.size a
  hwx0_3 : ∀ i : grid0.Coords, EltTy.bits .f32 = 32 ∨ (Rect.block (s := S200000x6) S2000x6.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x6.size a ≤ S200000x6.size a
  hwx0_4 : ∀ i : grid0.Coords, EltTy.bits .f32 = 32 ∨ (Rect.block (s := S200000x6) S2000x6.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x12800.size a
  hwx0_5 : ∀ i : grid0.Coords, EltTy.bits .f32 = 32 ∨ (Rect.block (s := S1x12800) S1x128.size (cc0_transform_5 i) (hinb0_5 i)).WholeWords (EltTy.packing .f32)

variable [Facts₀]

abbrev win0_0 : Pipeline.Window sig grid0 :=
  Pipeline.Window.ofSpec (Memref.whole main_arg0) S2000x88.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S2000x88.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S2000x88.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S2000x6.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S2000x6.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S200000x88 : Shape := ⟨2, ![200000, 88]⟩
abbrev S200000x6 : Shape := ⟨2, ![200000, 6]⟩
abbrev S200000x5 : Shape := ⟨2, ![200000, 5]⟩
abbrev S_ : Shape := ⟨0, ![]⟩
abbrev S88 : Shape := ⟨1, ![88]⟩

abbrev nBuf : Space → Nat
  | .hbm => 48
  | .vmem => 0
  | .smem => 0
  | _ => 0

abbrev bufTy : (tb : Table) → Fin (tcTables nBuf tb) → BufTy
  | .hbm, ⟨0, _⟩ => ⟨S200000x88, .f32⟩
  | .hbm, ⟨1, _⟩ => ⟨S200000x6, .f32⟩
  | .hbm, ⟨2, _⟩ => ⟨S200000x6, .f32⟩
  | .hbm, ⟨3, _⟩ => ⟨S200000x6, .f32⟩
  | .hbm, ⟨4, _⟩ => ⟨S200000x88, .f32⟩
  | .hbm, ⟨5, _⟩ => ⟨S200000x88, .f32⟩
  | .hbm, ⟨6, _⟩ => ⟨S200000x5, .f32⟩
  | .hbm, ⟨7, _⟩ => ⟨S200000x5, .f32⟩
  | .hbm, ⟨8, _⟩ => ⟨S200000x5, .f32⟩
  | .hbm, ⟨9, _⟩ => ⟨S200000x5, .f32⟩
  | .hbm, ⟨10, _⟩ => ⟨S_, .f32⟩
  | .hbm, ⟨11, _⟩ => ⟨S_, .f32⟩
  | .hbm, ⟨12, _⟩ => ⟨S200000x88, .f32⟩
  | .hbm, ⟨13, _⟩ => ⟨S_, .f32⟩
  | .hbm, ⟨14, _⟩ => ⟨S88, .f32⟩
  | .hbm, ⟨15, _⟩ => ⟨S88, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S200000x88, .f32⟩
  | .hbm, ⟨22, _⟩ => ⟨S200000x88, .f32⟩
  | .hbm, ⟨23, _⟩ => ⟨S200000x88, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S200000x88, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S200000x88, .f32⟩
  | .hbm, ⟨37, _⟩ => ⟨S200000x88, .i1⟩
  | .hbm, ⟨38, _⟩ => ⟨S_, .f32⟩
  | .hbm, ⟨39, _⟩ => ⟨S_, .f32⟩
  | .hbm, ⟨40, _⟩ => ⟨S200000x88, .f32⟩
  | .hbm, ⟨41, _⟩ => ⟨S200000x88, .f32⟩
  | .hbm, ⟨42, _⟩ => ⟨S_, .f32⟩
  | .hbm, ⟨43, _⟩ => ⟨S200000x88, .f32⟩
  | .hbm, ⟨44, _⟩ => ⟨S200000x88, .f32⟩
  | .hbm, ⟨45, _⟩ => ⟨S_, .f32⟩
  | .hbm, ⟨46, _⟩ => ⟨S_, .f32⟩
  | .hbm, ⟨47, _⟩ => ⟨S_, .f32⟩
  | _, _ => ⟨S200000x88, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_v22 : Ref sig .tc := ⟨.hbm, 37, rfl⟩
abbrev main_cst_8 : Ref sig .tc := ⟨.hbm, 38, rfl⟩
abbrev main_call0_v0 : Ref sig .tc := ⟨.hbm, 39, rfl⟩
abbrev main_call0_v1 : Ref sig .tc := ⟨.hbm, 40, rfl⟩
abbrev main_v23 : Ref sig .tc := ⟨.hbm, 41, rfl⟩
abbrev main_cst_9 : Ref sig .tc := ⟨.hbm, 42, rfl⟩
abbrev main_v24 : Ref sig .tc := ⟨.hbm, 43, rfl⟩
abbrev main_v25 : Ref sig .tc := ⟨.hbm, 44, rfl⟩
abbrev main_cst_10 : Ref sig .tc := ⟨.hbm, 45, rfl⟩
abbrev main_v26 : Ref sig .tc := ⟨.hbm, 46, rfl⟩
abbrev main_v27 : Ref sig .tc := ⟨.hbm, 47, rfl⟩

abbrev nD : Nat := 1
abbrev τ : Topo := Topo.v7x

variable {F : FTy → Type} [FloatOps F]

class Facts₀ : Prop where
  slices_S200000x6_S200000x5_0_0 : S200000x6.Slices ![0, 0] S200000x5
  reducesTo_S200000x5_S_d0_1 : S200000x5.ReducesTo [0, 1] S_
  h_S_ : 0 < S_.numel
  reducesTo_S200000x88_S88_d0 : S200000x88.ReducesTo [0] S88
  reducesTo_S88_S_d0 : S88.ReducesTo [0] S_
  reducesTo_S200000x88_S_d0_1 : S200000x88.ReducesTo [0, 1] S_
  bcast_S_S200000x88 : S_.BroadcastsInDim S200000x88 (![] : Fin 0 → Fin S200000x88.rank)

variable [Facts₀]

class Facts : Prop extends Facts₀ where

variable [Facts]
-- ==== Proof.OutArray.lean ====
/-
  The kernel's output array after the run, as one function of what each grid point stores.

  The output [1, 12800] is tiled by the 100 points' [1, 128] rows: point t writes columns 128·t … 128·t + 127.
  So column i of the final array is lane i mod 128 of the row that point i / 128 stored, and that row is the
  body's stored value on the point's five input blocks.
-/
import proofs.«110161_j1108101563123_1_alg».proof.Proof.Gen.KernelIdeal.Frame
import Idealize.ShloMosaic.Lib.Pipeline.Value
import Idealize.ShloMosaic.Lib.ValueIdx

noncomputable section

namespace Cert.Loss.Kernel

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The five input blocks of point t, at their literal types. -/
abbrev gblk (c : Dev nD) (t : Fin cfg0.N) : Vec F S2000x88 .f32 := iblk m c 0 t
abbrev dblk (c : Dev nD) (t : Fin cfg0.N) : Vec F S2000x88 .f32 := iblk m c 1 t
abbrev wblk (c : Dev nD) (t : Fin cfg0.N) : Vec F S2000x88 .f32 := iblk m c 2 t
abbrev oblk (c : Dev nD) (t : Fin cfg0.N) : Vec F S2000x6 .f32 := iblk m c 3 t
abbrev ublk (c : Dev nD) (t : Fin cfg0.N) : Vec F S2000x6 .f32 := iblk m c 4 t

/-- The row of 128 lanes point t's body stores. -/
def stored (c : Dev nD) (t : Fin cfg0.N) : Vec F S1x128 .f32 :=
  out0_5 (gblk m c t) (dblk m c t) (wblk m c t) (oblk m c t) (ublk m c t)

/-- The point whose row holds column i. -/
def ptOf (i : S1x12800.Idx) : Fin cfg0.N :=
  ⟨(i 1).val / 128, by have h : (i 1).val < 12800 := (i 1).isLt; rw [show cfg0.N = 100 from N_0]; omega⟩
/-- The lane of that row at which column i sits. -/
def laneOf (i : S1x12800.Idx) : S1x128.Idx :=
  ix2 (0 : Fin 1) (⟨(i 1).val % 128, Nat.mod_lt _ (by decide)⟩ : Fin 128)

/-- The output array after the run. -/
def outArr (c : Dev nD) : Buf (Elt F) ((c : Thread nD τ).loc main_v0) :=
  fun i => stored m c (ptOf i) (laneOf i)

/-- The output window's block index at point t is (0, t). -/
theorem idx5 : ∀ t : Fin cfg0.N, win0_5.index t (0 : Fin 2) = 0 ∧ win0_5.index t (1 : Fin 2) = t.val :=
  (by decide +kernel : ∀ t : Fin grid0.N, win0_5.index t (0 : Fin 2) = 0 ∧ win0_5.index t (1 : Fin 2) = t.val)

/-- What point t writes back is its block of the output array. -/
theorem flushed_eq (c : Dev nD) (t : Fin cfg0.N) :
    (dats m 0 c).flushed 5 t = ((cfg0.win 5).blk t).view.read (Elt F) (outArr m c) := by
  show (cfg0.win 5).cut (grid0.coords t) ((dats m 0 c).after 5 t) = _
  rw [after0_5]
  obtain ⟨e0, e1⟩ := idx5 t
  funext y
  show stored m c t y = outArr m c (((cfg0.win 5).blk t).view.emb y)
  have hy0 : (y 0).val < 1 := (y 0).isLt
  have hy1 : (y 1).val < 128 := (y 1).isLt
  have h1 : ((((cfg0.win 5).blk t).view.emb y) 1).val = t.val * 128 + (y 1).val := by
    show win0_5.index t (1 : Fin 2) * 128 + 1 * (y 1).val = _
    rw [e1]; omega
  have hp : ptOf (((cfg0.win 5).blk t).view.emb y) = t := Fin.ext (by
    show ((((cfg0.win 5).blk t).view.emb y) 1).val / 128 = t.val
    rw [h1]; omega)
  have hl : laneOf (((cfg0.win 5).blk t).view.emb y) = y := by
    funext a
    apply Fin.ext
    match a with
    | ⟨0, _⟩ => show (0 : Nat) = (y 0).val; omega
    | ⟨1, _⟩ => show ((((cfg0.win 5).blk t).view.emb y) 1).val % 128 = (y 1).val; rw [h1]; omega
  unfold outArr
  rw [hp, hl]

/-- Every column lies in the block of the point that holds it. -/
theorem cover (i : S1x12800.Idx) :
    ∃ t : Fin cfg0.N, (cfg0.win 5).flush t = true ∧ i ∈ ((cfg0.win 5).blk t).view.set := by
  refine ⟨ptOf i, flush0_5 (ptOf i), ?_⟩
  obtain ⟨e0, e1⟩ := idx5 (ptOf i)
  have hi0 : (i 0).val < 1 := (i 0).isLt
  have hi1 : (i 1).val < 12800 := (i 1).isLt
  have hp : (ptOf i).val = (i 1).val / 128 := rfl
  show i ∈ ((View.whole main_v0).slice (win0_5.rect (ptOf i))).set
  rw [View.set_slice_whole, Rect.mem_set_unit]
  intro a
  match a with
  | ⟨0, _⟩ =>
    show win0_5.index (ptOf i) (0 : Fin 2) * 1 ≤ (i 0).val ∧ (i 0).val < win0_5.index (ptOf i) (0 : Fin 2) * 1 + 1
    rw [e0]; omega
  | ⟨1, _⟩ =>
    show win0_5.index (ptOf i) (1 : Fin 2) * 128 ≤ (i 1).val ∧ (i 1).val < win0_5.index (ptOf i) (1 : Fin 2) * 128 + 128
    rw [e1, hp]; omega

/-- The output array ends holding `outArr`. -/
theorem final (c : Dev nD) : (dats m 0 c).arrAt 5 cfg0.N = outArr m c :=
  (dats m 0 c).arrAt_eq_of_cover 5 (outArr m c) (fun t _ => flushed_eq m c t) cover

end Cert.Loss.Kernel

end
-- ==== Proof.KernelRun.lean ====
/-
  The kernel's run, read: @main's result is the host operations after the call applied to the output array.

  After the call the program reshapes the [1, 12800] output to [100, 128] (row t is what point t stored), takes
  the column sums of its first 88 columns and the totals of columns 88, 89, 90 and 91, and combines them:
  (((col88 + c₁ · Σ log(column sums)) + col89 · c₂) + col90 · c₃) + col91 · c₂.  `tail` is that composition as one
  function of the output array; the run ends with the result buffer at `tail` of the array `outArr`.
-/
import proofs.«110161_j1108101563123_1_alg».proof.Proof.OutArray
import Idealize.ShloMosaic.Lib.StableHlo.Run

noncomputable section

namespace Cert.Loss.Kernel

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The output array viewed as 100 rows of 128 lanes. -/
def rows (R : (⟨S1x12800, .f32⟩ : BufTy).Contents (Elt F)) : (⟨S100x128, .f32⟩ : BufTy).Contents (Elt F) :=
  fun i => shapeCast S100x128 R shapeCasts_S1x12800_S100x128 i

/-- The total of one of the columns 88–91 of the rows, as the program takes it: slice, drop the unit axis, sum. -/
def colTotal (Q : (⟨S100x128, .f32⟩ : BufTy).Contents (Elt F)) (off : Fin S100x128.rank → Nat) (h : S100x128.Slices off S100x1) :
    (⟨S_, .f32⟩ : BufTy).Contents (Elt F) :=
  Host.reduceAdd (fun i => shapeCast S100 (extractStridedSlice S100x1 off Q h) shapeCasts_S100x1_S100 i)
    (constant S_ .f32 0x00000000#32) reducesTo_S100_S_d0 h_S_

/-- The host operations after the call, composed: the loss from the output array. -/
def tail (R : (⟨S1x12800, .f32⟩ : BufTy).Contents (Elt F)) : (⟨S_, .f32⟩ : BufTy).Contents (Elt F) :=
  addf
    (addf
      (addf
        (addf (colTotal (rows R) ![0, 88] slices_S100x128_S100x1_0_88)
          (mulf (constant S_ .f32 0x38D1B717#32)
            (Host.reduceAdd
              (Host.log
                (Host.reduceAdd (extractStridedSlice S100x88 ![0, 0] (rows R) slices_S100x128_S100x88_0_0)
                  (constant S_ .f32 0x00000000#32) reducesTo_S100x88_S88_d0 h_S_))
              (constant S_ .f32 0x00000000#32) reducesTo_S88_S_d0 h_S_)))
        (mulf (colTotal (rows R) ![0, 89] slices_S100x128_S100x1_0_89) (constant S_ .f32 0x42C80000#32)))
      (mulf (colTotal (rows R) ![0, 90] slices_S100x128_S100x1_0_90) (constant S_ .f32 0x3C23D70A#32)))
    (mulf (colTotal (rows R) ![0, 91] slices_S100x128_S100x1_0_91) (constant S_ .f32 0x42C80000#32))

set_option maxRecDepth 8192 in
set_option maxHeartbeats 2000000 in
/-- What the operations after the call leave in the result buffer: `tail` of the output array. -/
theorem tail_result (c : Dev nD) :
    Pipeline.afterTail₀ cfgs (dats m) 0 (V0 m) [hostOps1] c main_v25 = tail (outArr m c) := by
  unfold Pipeline.afterTail₀
  simp only [List.flatten_cons, List.flatten_nil, List.append_nil]
  after_results_simp
  have hR : Pipeline.withArrays (cfgs 0).spec c (V0 m c) (fun w => (dats m 0 c).arrAt w (cfgs 0).N) (Proc.tc.devRef main_v0)
      = outArr m c :=
    (Pipeline.withArrays_arr spec0 launch0.win.arr_inj c _ _ 5).trans (final m c)
  rw [hR]
  rfl

/-- The run: every weakly fair execution of @main terminates with the result at `tail` of the output array and
    every argument unchanged. -/
theorem run : θ_run defs (onTc (τ := τ) (main (F := F))) ⟨m, fun _ => 0, ρ⟩ (fun r => ∀ c : Dev nD,
      r.2.mem ((c.tc : Thread nD τ).loc main_v25) = tail (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v25 (Pipeline.mem_restRefs_of main_v25 (by decide) (by decide))).trans (tail_result m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      (((h c).2 main_arg3 (Pipeline.mem_restRefs_of main_arg3 (by decide) (by decide))).trans (W_main_arg3 m (dats m) c)),
      ((h c).1 1).trans (((dats m 0 c).arrAt_in 1 rfl _).trans ((A_eq m c 1).trans (V_main_arg4 m c))),
      ((h c).1 2).trans (((dats m 0 c).arrAt_in 2 rfl _).trans ((A_eq m c 2).trans (V_main_arg5 m c)))⟩)
    (run_main m ρ)

end Cert.Loss.Kernel

end
-- ==== Proof.LibSums.lean ====
/-
  General lemmas about finite sums, for value proofs on the extended reals.

  `sum_idx1`: a sum over the index set of a rank-1 shape is the sum over its one coordinate (the rank-2 form is
  the library's `sum_idx2`).  `sum_fin_blocks`: a sum over m·n consecutive numbers is the sum over m blocks of
  the sums over each block's n numbers.  `sum_coe_mul`: a real factor moves across a finite sum of real numbers
  read in the extended reals; there multiplication distributes over addition only away from the infinities, so
  the summands are asked to be real.
-/
import Idealize.ShloMosaic.PureOps.Ideal
import Idealize.ShloMosaic.Lib.ValueIdx

noncomputable section

open scoped BigOperators

namespace Cert.Lib

open Idealize.ShloMosaic Idealize.ShloMosaic.ValueIdx

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- So a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the first m·n numbers is the sum over m blocks of the sums over each block's n numbers:
    number n·t + r is entry r of block t. -/
theorem sum_fin_blocks {M : Type*} [AddCommMonoid M] (m n : Nat) (f : Fin (m * n) → M) :
    ∑ i : Fin (m * n), f i
      = ∑ t : Fin m, ∑ r : Fin n, f ⟨n * t.val + r.val, by
          have ht := t.isLt; have hr := r.isLt
          calc n * t.val + r.val < n * t.val + n := by omega
            _ = n * (t.val + 1) := by ring
            _ ≤ n * m := Nat.mul_le_mul_left n ht
            _ = m * n := Nat.mul_comm n m⟩ := by
  rw [← Fintype.sum_prod_type' (fun (t : Fin m) (r : Fin n) => f ⟨n * t.val + r.val, _⟩)]
  refine (Fintype.sum_equiv (finProdFinEquiv (m := m) (n := n)) _ _ fun p => ?_).symm
  refine congrArg f (Fin.ext ?_)
  show n * p.1.val + p.2.val = p.2.val + n * p.1.val
  omega

/-- A real factor moves across a finite sum of real numbers, on the extended reals. -/
theorem sum_coe_mul {ι : Type*} (s : Finset ι) (g : ι → ℝ) (c : ℝ) :
    (∑ i ∈ s, (g i : EReal)) * (c : EReal) = ∑ i ∈ s, (g i : EReal) * (c : EReal) := by
  classical
  have hcoe : ∀ (h : ι → ℝ), (∑ i ∈ s, (h i : EReal)) = ((∑ i ∈ s, h i : ℝ) : EReal) := fun h => by
    induction s using Finset.induction_on with
    | empty => simp
    | insert a s ha ih => rw [Finset.sum_insert ha, Finset.sum_insert ha, ih, EReal.coe_add]
  simp only [← EReal.coe_mul]
  rw [hcoe, hcoe, ← EReal.coe_mul, Finset.sum_mul]

end Cert.Lib

end
-- ==== Proof.Spec.lean ====
/-
  The loss both programs compute, as plain mathematics on the extended reals.

  For arrays G, D, w : [200000, 88] and out, U : [200000, 6] the loss is

      Σ_{i, k<5} (U − out)²  +  c₁ · Σ_{j<88} log (Σ_i |G|)  +  (Σ_{i,j} (G − w·D)²) · c₂
        +  (Σ_{i,j} w²) · c₃  +  (Σ_{i,j} min(G, 0)-part) · c₂ ,

  with c₁, c₂, c₃ the three float constants both programs spell with the same words.  The kernel forms each
  sum block by block (100 blocks of 2000 rows) and multiplies the last total by c₂ once; the reference sums
  over all rows at once and multiplies every negative entry by c₂ before summing.  Two laws join the two
  arrangements: a sum over 200000 rows is the sum over the blocks of the sums over each block's rows
  (`sum_rows_blocks`, true in any commutative monoid), and a constant factor moves across a sum of REAL
  numbers (on the extended reals it needs the summands finite).
-/
import Idealize.ShloMosaic.PureOps.Ideal
import Idealize.ShloMosaic.Lib.ValueIdx
import proofs.«110161_j1108101563123_1_alg».proof.Proof.LibSums

noncomputable section

open scoped BigOperators

namespace Cert.Loss

open Idealize.ShloMosaic Idealize.ShloMosaic.ValueIdx

/-- A [200000, 88] array of extended reals. -/
abbrev Wide := (⟨2, ![200000, 88]⟩ : Shape).Idx → EReal
/-- A [200000, 6] array of extended reals. -/
abbrev Narrow := (⟨2, ![200000, 6]⟩ : Shape).Idx → EReal

/-- Year k < 5 as a column of a six-column array. -/
def year (k : Fin 5) : Fin 6 := ⟨k.val, by omega⟩

/-- Row r of block t: row 2000·t + r of the array. -/
def row (t : Fin 100) (r : Fin 2000) : Fin 200000 := ⟨2000 * t.val + r.val, by omega⟩

/-- The three constants, by their words. -/
def c₁ : EReal := Ideal.ofBits .f32 0x38D1B717#32
def c₂ : EReal := Ideal.ofBits .f32 0x42C80000#32
def c₃ : EReal := Ideal.ofBits .f32 0x3C23D70A#32

/-- (U − out)² at row i, year k. -/
def dsq (out U : Narrow) (i : Fin 200000) (k : Fin 5) : EReal :=
  (U (ix2 i (year k)) - out (ix2 i (year k))) * (U (ix2 i (year k)) - out (ix2 i (year k)))
/-- |G| at (i, j). -/
def absG (G : Wide) (i : Fin 200000) (j : Fin 88) : EReal := max (G (ix2 i j)) (-(G (ix2 i j)))
/-- (G − w·D)² at (i, j). -/
def rsq (G D w : Wide) (i : Fin 200000) (j : Fin 88) : EReal :=
  (G (ix2 i j) - w (ix2 i j) * D (ix2 i j)) * (G (ix2 i j) - w (ix2 i j) * D (ix2 i j))
/-- w² at (i, j). -/
def wsq (w : Wide) (i : Fin 200000) (j : Fin 88) : EReal := w (ix2 i j) * w (ix2 i j)
/-- The negative part of G at (i, j): G where G < 0, else 0. -/
def negG (G : Wide) (i : Fin 200000) (j : Fin 88) : EReal :=
  Scalar.select (Ideal.cmp .olt (G (ix2 i j)) 0) (G (ix2 i j)) 0

/-- The loss, every sum taken over all rows at once, the negative parts' total multiplied once. -/
def total (out U : Narrow) (G D w : Wide) : EReal :=
  ((((∑ i : Fin 200000, ∑ k : Fin 5, dsq out U i k)
      + c₁ * ∑ j : Fin 88, Ideal.log (∑ i : Fin 200000, absG G i j))
      + (∑ i : Fin 200000, ∑ j : Fin 88, rsq G D w i j) * c₂)
      + (∑ i : Fin 200000, ∑ j : Fin 88, wsq w i j) * c₃)
      + (∑ i : Fin 200000, ∑ j : Fin 88, negG G i j) * c₂

/-- A sum over the 200000 rows is the sum over the 100 blocks of the sums over each block's 2000 rows. -/
theorem sum_rows_blocks {M : Type*} [AddCommMonoid M] (f : Fin 200000 → M) :
    ∑ i : Fin 200000, f i = ∑ t : Fin 100, ∑ r : Fin 2000, f (row t r) :=
  Cert.Lib.sum_fin_blocks 100 2000 f

end Cert.Loss

end
-- ==== Proof.Sums.lean ====
/-
  The constant c₂ (the word 0x42C80000) is the real number 100.
-/
import proofs.«110161_j1108101563123_1_alg».proof.Proof.Spec

noncomputable section

namespace Cert.Loss

open Idealize.ShloMosaic

/-- The word 0x42C80000 denotes the real number 100. -/
theorem c₂_eq : c₂ = ((100 : ℝ) : EReal) := by
  unfold c₂
  simp [Ideal.ofBits, Ideal.ieee, -EReal.coe_mul]; norm_num

end Cert.Loss

end
-- ==== Proof.TailValue.lean ====
/-
  The loss as the kernel's host operations compute it from the output array, read at the Ideal instance.

  Reading the [1, 12800] output array R as 100 rows of 128 lanes (row t, lane l is column 128·t + l), the
  result is  (((Σ_t R[t, 88] + c₁ · Σ_{j<88} log (Σ_t R[t, j])) + (Σ_t R[t, 89]) · c₂) + (Σ_t R[t, 90]) · c₃)
  + (Σ_t R[t, 91]) · c₂ : each host sum starts from the zero word, which is the extended real 0.
-/
import proofs.«110161_j1108101563123_1_alg».proof.Proof.KernelRun
import proofs.«110161_j1108101563123_1_alg».proof.Proof.Sums
import Idealize.ShloMosaic.PureOps.Ideal.Laws

noncomputable section

open scoped BigOperators

namespace Cert.Loss.Kernel

open Idealize.ShloMosaic Idealize.ShloMosaic.TcCoe Idealize.ShloMosaic.ValueIdx Idealize.SL.Sem
open Cert.KernelIdeal Cert.KernelIdeal.Gen Cert.Loss Cert.Lib

/-- Column 128·t + l of the output array: lane l of row t. -/
def col (t : Fin 100) (l : Fin 128) : S1x12800.Idx :=
  ix2 (0 : Fin 1) (⟨128 * t.val + l.val, by omega⟩ : Fin 12800)

/-- Lane j of a row, j < 88. -/
def lane88 (j : Fin 88) : Fin 128 := ⟨j.val, by omega⟩

/-- The rows view at (t, l) is the array at column 128·t + l. -/
theorem rows_apply (R : (⟨S1x12800, .f32⟩ : BufTy).Contents (Elt Ideal)) (t : Fin 100) (l : Fin 128) :
    rows (F := Ideal) R (ix2 t l) = R (col t l) := by
  unfold rows
  refine shapeCast_apply R shapeCasts_S1x12800_S100x128 (ix2 t l) (col t l) ?_
  rw [Shape.rowMajor_val_two, Shape.rowMajor_val_two]
  show (0 : Nat) * 12800 + (128 * t.val + l.val) = t.val * 128 + l.val
  omega

/-- A column's total, as the program takes it, is the sum of the column's 100 entries. -/
theorem colTotal_apply (Q : (⟨S100x128, .f32⟩ : BufTy).Contents (Elt Ideal)) (k : Fin 128)
    (h : S100x128.Slices ![0, k.val] S100x1) :
    colTotal (F := Ideal) Q ![0, k.val] h ix0 = ∑ t : Fin 100, Q (ix2 t k) := by
  unfold colTotal
  simp only [Host.reduceAdd, Ideal.hostReduceAdd_def]
  rw [Ideal.hostReduceAdd_total reducesTo_S100_S_d0 (fun b => b.elim0)]
  rw [constant_apply, Ideal.ofBits_zero_f32, zero_add, sum_idx1]
  refine Finset.sum_congr rfl fun t _ => ?_
  refine (shapeCast_apply _ shapeCasts_S100x1_S100 (ix1 t) (ix2 t (0 : Fin 1)) ?_).trans ?_
  · rw [Shape.rowMajor_val_two, Shape.rowMajor_val_one]
    show t.val * 1 + 0 = t.val
    omega
  · refine extractStridedSlice_apply ![0, k.val] Q h (ix2 t (0 : Fin 1)) (ix2 t k) fun a => ?_
    match a with
    | ⟨0, _⟩ => show t.val = 0 + t.val; omega
    | ⟨1, _⟩ => show k.val = k.val + 0; omega

/-- The column sums of the first 88 lanes, as the program takes them. -/
theorem colSums_apply (Q : (⟨S100x128, .f32⟩ : BufTy).Contents (Elt Ideal)) (j : Fin 88) :
    Host.reduceAdd (F := Ideal) (extractStridedSlice S100x88 ![0, 0] Q slices_S100x128_S100x88_0_0)
        (constant S_ .f32 0x00000000#32) reducesTo_S100x88_S88_d0 h_S_ (ix1 j)
      = ∑ t : Fin 100, Q (ix2 t (lane88 j)) := by
  simp only [Host.reduceAdd, Ideal.hostReduceAdd_def]
  rw [Ideal.hostReduceAdd_single reducesTo_S100x88_S88_d0 (by decide)]
  rw [constant_apply, Ideal.ofBits_zero_f32, zero_add]
  refine Finset.sum_congr rfl fun t _ => ?_
  refine extractStridedSlice_apply ![0, 0] Q slices_S100x128_S100x88_0_0 _ (ix2 t (lane88 j)) fun a => ?_
  match a with
  | ⟨0, _⟩ => show t.val = 0 + t.val; omega
  | ⟨1, _⟩ => show j.val = 0 + j.val; omega

/-- The loss from the output array, at Ideal. -/
theorem tail_value (R : (⟨S1x12800, .f32⟩ : BufTy).Contents (Elt Ideal)) :
    tail (F := Ideal) R ix0
      = ((((∑ t : Fin 100, R (col t ⟨88, by omega⟩))
          + c₁ * ∑ j : Fin 88, Ideal.log (∑ t : Fin 100, R (col t (lane88 j))))
          + (∑ t : Fin 100, R (col t ⟨89, by omega⟩)) * c₂)
          + (∑ t : Fin 100, R (col t ⟨90, by omega⟩)) * c₃)
          + (∑ t : Fin 100, R (col t ⟨91, by omega⟩)) * c₂ := by
  unfold tail
  simp only [addf_apply, mulf_apply, constant_apply]
  rw [colTotal_apply (rows R) ⟨88, by omega⟩, colTotal_apply (rows R) ⟨89, by omega⟩,
    colTotal_apply (rows R) ⟨90, by omega⟩, colTotal_apply (rows R) ⟨91, by omega⟩]
  simp only [rows_apply]
  have hlog : Host.reduceAdd (F := Ideal)
        (Host.log (Host.reduceAdd (extractStridedSlice S100x88 ![0, 0] (rows R) slices_S100x128_S100x88_0_0)
          (constant S_ .f32 0x00000000#32) reducesTo_S100x88_S88_d0 h_S_))
        (constant S_ .f32 0x00000000#32) reducesTo_S88_S_d0 h_S_ ix0
      = ∑ j : Fin 88, Ideal.log (∑ t : Fin 100, R (col t (lane88 j))) := by
    generalize hy : Host.log (Host.reduceAdd (extractStridedSlice S100x88 ![0, 0] (rows R) slices_S100x128_S100x88_0_0)
          (constant S_ .f32 0x00000000#32) reducesTo_S100x88_S88_d0 h_S_) = y
    simp only [Host.reduceAdd, Ideal.hostReduceAdd_def]
    rw [Ideal.hostReduceAdd_total reducesTo_S88_S_d0 (fun b => b.elim0)]
    rw [constant_apply, Ideal.ofBits_zero_f32, zero_add, sum_idx1]
    refine Finset.sum_congr rfl fun j _ => ?_
    subst hy
    show Ideal.log (Host.reduceAdd (F := Ideal) (extractStridedSlice S100x88 ![0, 0] (rows R) slices_S100x128_S100x88_0_0)
          (constant S_ .f32 0x00000000#32) reducesTo_S100x88_S88_d0 h_S_ (ix1 j)) = _
    rw [colSums_apply]
    simp only [rows_apply]
  rw [hlog]
  rfl

end Cert.Loss.Kernel

end
-- ==== Proof.BlockRead.lean ====
/-
  Each input block of a grid point, read at an entry: block t of an argument array is its rows
  2000·t … 2000·t + 1999, all columns; entry (r, j) of the block is the array's entry (2000·t + r, j).
-/
import proofs.«110161_j1108101563123_1_alg».proof.Proof.OutArray

noncomputable section

namespace Cert.Loss.Kernel

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- Row r of block t is a row of the array. -/
theorem rowLt (t : Fin cfg0.N) (r : Fin 2000) : 2000 * t.val + r.val < 200000 := by
  have h : t.val < 100 := Nat.lt_of_lt_of_eq t.isLt (show cfg0.N = 100 from N_0)
  have := r.isLt
  omega

/-- Every input window's block index at point t is (t, 0). -/
theorem idx_in0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_in1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_in2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx_in3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx_in4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- Window 0 stages the first argument (G). -/
theorem gblk_apply (c : Dev nD) (t : Fin cfg0.N) (r : Fin 2000) (j : Fin 88) :
    gblk m c t (ix2 r j)
      = (m ((c : Thread nD τ).loc main_arg0) : S200000x88.Idx → Elt F .f32) (ix2 (⟨2000 * t.val + r.val, rowLt t r⟩ : Fin 200000) j) := by
  obtain ⟨e0, e1⟩ := idx_in0 t
  unfold gblk iblk
  rw [View.read_apply]
  show V m c main_arg0 _ = m (c.tc.loc main_arg0) _
  rw [V_main_arg0]
  refine congrArg _ (funext fun a => Fin.ext ?_)
  match a with
  | ⟨0, _⟩ => show win0_0.index t (0 : Fin 2) * 2000 + 1 * r.val = 2000 * t.val + r.val; rw [e0]; omega
  | ⟨1, _⟩ => show win0_0.index t (1 : Fin 2) * 88 + 1 * j.val = j.val; rw [e1]; omega

/-- Window 1 stages the fifth argument (D). -/
theorem dblk_apply (c : Dev nD) (t : Fin cfg0.N) (r : Fin 2000) (j : Fin 88) :
    dblk m c t (ix2 r j)
      = (m ((c : Thread nD τ).loc main_arg4) : S200000x88.Idx → Elt F .f32) (ix2 (⟨2000 * t.val + r.val, rowLt t r⟩ : Fin 200000) j) := by
  obtain ⟨e0, e1⟩ := idx_in1 t
  unfold dblk iblk
  rw [View.read_apply]
  show V m c main_arg4 _ = m (c.tc.loc main_arg4) _
  rw [V_main_arg4]
  refine congrArg _ (funext fun a => Fin.ext ?_)
  match a with
  | ⟨0, _⟩ => show win0_1.index t (0 : Fin 2) * 2000 + 1 * r.val = 2000 * t.val + r.val; rw [e0]; omega
  | ⟨1, _⟩ => show win0_1.index t (1 : Fin 2) * 88 + 1 * j.val = j.val; rw [e1]; omega

/-- Window 2 stages the sixth argument (w). -/
theorem wblk_apply (c : Dev nD) (t : Fin cfg0.N) (r : Fin 2000) (j : Fin 88) :
    wblk m c t (ix2 r j)
      = (m ((c : Thread nD τ).loc main_arg5) : S200000x88.Idx → Elt F .f32) (ix2 (⟨2000 * t.val + r.val, rowLt t r⟩ : Fin 200000) j) := by
  obtain ⟨e0, e1⟩ := idx_in2 t
  unfold wblk iblk
  rw [View.read_apply]
  show V m c main_arg5 _ = m (c.tc.loc main_arg5) _
  rw [V_main_arg5]
  refine congrArg _ (funext fun a => Fin.ext ?_)
  match a with
  | ⟨0, _⟩ => show win0_2.index t (0 : Fin 2) * 2000 + 1 * r.val = 2000 * t.val + r.val; rw [e0]; omega
  | ⟨1, _⟩ => show win0_2.index t (1 : Fin 2) * 88 + 1 * j.val = j.val; rw [e1]; omega

/-- Window 3 stages the second argument (out). -/
theorem oblk_apply (c : Dev nD) (t : Fin cfg0.N) (r : Fin 2000) (k : Fin 6) :
    oblk m c t (ix2 r k)
      = (m ((c : Thread nD τ).loc main_arg1) : S200000x6.Idx → Elt F .f32) (ix2 (⟨2000 * t.val + r.val, rowLt t r⟩ : Fin 200000) k) := by
  obtain ⟨e0, e1⟩ := idx_in3 t
  unfold oblk iblk
  rw [View.read_apply]
  show V m c main_arg1 _ = m (c.tc.loc main_arg1) _
  rw [V_main_arg1]
  refine congrArg _ (funext fun a => Fin.ext ?_)
  match a with
  | ⟨0, _⟩ => show win0_3.index t (0 : Fin 2) * 2000 + 1 * r.val = 2000 * t.val + r.val; rw [e0]; omega
  | ⟨1, _⟩ => show win0_3.index t (1 : Fin 2) * 6 + 1 * k.val = k.val; rw [e1]; omega

/-- Window 4 stages the third argument (U). -/
theorem ublk_apply (c : Dev nD) (t : Fin cfg0.N) (r : Fin 2000) (k : Fin 6) :
    ublk m c t (ix2 r k)
      = (m ((c : Thread nD τ).loc main_arg2) : S200000x6.Idx → Elt F .f32) (ix2 (⟨2000 * t.val + r.val, rowLt t r⟩ : Fin 200000) k) := by
  obtain ⟨e0, e1⟩ := idx_in4 t
  unfold ublk iblk
  rw [View.read_apply]
  show V m c main_arg2 _ = m (c.tc.loc main_arg2) _
  rw [V_main_arg2]
  refine congrArg _ (funext fun a => Fin.ext ?_)
  match a with
  | ⟨0, _⟩ => show win0_4.index t (0 : Fin 2) * 2000 + 1 * r.val = 2000 * t.val + r.val; rw [e0]; omega
  | ⟨1, _⟩ => show win0_4.index t (1 : Fin 2) * 6 + 1 * k.val = k.val; rw [e1]; omega

end Cert.Loss.Kernel

end
-- ==== Proof.BlockValue.lean ====
/-
  What one grid point's body stores: a row of 128 lanes computed from the point's five input blocks
  x0 = G's, x1 = D's, x2 = w's ([2000, 88] each) and x3 = out's, x4 = U's ([2000, 6] each).

  Lane j < 88 holds Σ_r |x0[r, j]|; lane 88 holds Σ_r Σ_{k<5} (x4 − x3)²[r, k]; lane 89 holds
  Σ_r Σ_j (x0 − x2·x1)²[r, j]; lane 90 holds Σ_r Σ_j x2²[r, j]; lane 91 holds Σ_r Σ_j of the negative part
  of x0[r, j].  (Lanes 92–127 hold zero and are never read.)  Each is the stored concatenation read at the
  lane: the piece that holds the lane, then its shape casts and its lane- and row-reductions as plain sums.
-/
import proofs.«110161_j1108101563123_1_alg».proof.Proof.Gen.KernelIdeal.Frame
import proofs.«110161_j1108101563123_1_alg».proof.Proof.Spec
import Idealize.ShloMosaic.Lib.Pipeline.Value
import Idealize.ShloMosaic.Lib.ValueIdx
import Idealize.ShloMosaic.PureOps.Ideal.Laws

noncomputable section

open scoped BigOperators

namespace Cert.Loss.Block

open Idealize.ShloMosaic Idealize.ShloMosaic.TcCoe Idealize.ShloMosaic.ValueIdx
open Cert.KernelIdeal Cert.KernelIdeal.Gen Cert.Loss

/-- Lane j of the 128-lane row, j < 88. -/
def lane88 (j : Fin 88) : Fin 128 := ⟨j.val, by omega⟩

variable (x0 x1 x2 : Vec Ideal S2000x88 .f32) (x3 x4 : Vec Ideal S2000x6 .f32)

/-- The stored row is the concatenation payload of the five reductions of the blocks themselves: the one store
    covers the whole buffer and each load reads a whole block. -/
theorem out0_5_eq :
    out0_5 (F := Ideal) x0 x1 x2 x3 x4
      = k0_pay1 (k0_pay2 x3 x4) (k0_pay3 x0) (k0_pay4 x0 x1 x2) (k0_pay5 x2) (k0_pay6 x0) (k0_pay7 (F := Ideal)) := by
  have hz : (![0, 0] : Fin 2 → Nat) = fun _ => 0 := funext fun a => by fin_cases a <;> rfl
  unfold out0_5
  rw [View.canon_unit_zero hz]
  simp only [View.ld_unit_zero (S := S2000x88) hz, View.ld_unit_zero (S := S2000x6) hz]

/-- The column sums of |x0|, read at lane j of the [1, 88] piece. -/
theorem pay3_apply (j : Fin 88) :
    k0_pay3 (F := Ideal) x0 (ix2 (0 : Fin 1) j) = ∑ r : Fin 2000, max (x0 (ix2 r j)) (-(x0 (ix2 r j))) := by
  unfold k0_pay3
  refine (shapeCast_addUnit_apply ![88] _ shapeCasts_S88_S1x88 (ix2 0 j)).trans ?_
  refine (Ideal.multiReduction_add_single _ _ _ _ _ _).trans ?_
  refine Finset.sum_congr rfl fun r _ => ?_
  have e : (reduces_S2000x88_S88.lift (fun a => (ix2 (0 : Fin 1) j) a.succ) r : S2000x88.Idx) = ix2 r j := by
    funext a; match a with | ⟨0, _⟩ => rfl | ⟨1, _⟩ => rfl
  exact congrArg (fun i => max (x0 i) (-(x0 i))) e

/-- A block of 2000 rows summed first along each row, then down the rows (through the [2000, 1] column), read at the
    one index of the [1, 1] result: the double sum over rows and columns. -/
theorem rowsum_apply {n : Nat} (V : FVec Ideal ⟨2, ![2000, n]⟩ .f32)
    (h1 : Shape.Reduces ⟨2, ![2000, n]⟩ [1] S2000) (hφ1 : FKind.Formats .f32)
    (hacc1 : (0x00000000#32 : BitVec 32) = FKind.add.neutral .f32 hφ1) (hφ0 : FKind.Formats .f32)
    (hacc0 : (0x00000000#32 : BitVec 32) = FKind.add.neutral .f32 hφ0) :
    shapeCast S1x1 (multiReduction (F := Ideal) .add [0] S1
        (shapeCast S2000x1 (multiReduction (F := Ideal) .add [1] S2000 V 0x00000000#32 h1 hφ1 hacc1) shapeCasts_S2000_S2000x1)
        0x00000000#32 reduces_S2000x1_S1 hφ0 hacc0) shapeCasts_S1_S1x1 (ix2 (0 : Fin 1) (0 : Fin 1))
      = ∑ r : Fin 2000, ∑ j : Fin n, V (ix2 r j) := by
  refine (shapeCast_addUnit_apply ![1] _ shapeCasts_S1_S1x1 (ix2 0 0)).trans ?_
  refine (Ideal.multiReduction_add_single _ _ _ _ _ _).trans ?_
  refine Finset.sum_congr rfl fun r _ => ?_
  refine (shapeCast_apply _ shapeCasts_S2000_S2000x1 _ (ix1 r) ?_).trans ?_
  · rw [Shape.rowMajor_val_one, Shape.rowMajor_val_two]
    show r.val = r.val * 1 + 0
    omega
  refine (Ideal.multiReduction_add_single _ _ _ _ _ _).trans ?_
  refine Finset.sum_congr rfl fun j _ => ?_
  exact congrArg V (funext fun a => match a with | ⟨0, _⟩ => rfl | ⟨1, _⟩ => rfl)

/-- The first five columns of a six-column block, read at (r, k): the block at (r, year k). -/
theorem slice5_apply (x : Vec Ideal S2000x6 .f32) (r : Fin 2000) (k : Fin 5) :
    extractStridedSlice S2000x5 ![0, 0] x slices_S2000x6_o0_0_S2000x5 (ix2 r k) = x (ix2 r (year k)) :=
  extractStridedSlice_apply _ x _ (ix2 r k) (ix2 r (year k)) fun a => match a with
    | ⟨0, _⟩ => by show r.val = 0 + r.val; omega
    | ⟨1, _⟩ => by show k.val = 0 + k.val; omega

/-- The [1, 1] piece of squared differences: Σ_r Σ_{k<5} (x4 − x3)²[r, k]. -/
theorem pay2_apply :
    k0_pay2 (F := Ideal) x3 x4 (ix2 (0 : Fin 1) (0 : Fin 1))
      = ∑ r : Fin 2000, ∑ k : Fin 5,
          (x4 (ix2 r (year k)) - x3 (ix2 r (year k))) * (x4 (ix2 r (year k)) - x3 (ix2 r (year k))) := by
  unfold k0_pay2
  refine (rowsum_apply (n := 5) _ _ _ _ _ _).trans ?_
  refine Finset.sum_congr rfl fun r _ => Finset.sum_congr rfl fun k _ => ?_
  simp only [mulf_apply, subf_apply]
  rw [slice5_apply x4 r k, slice5_apply x3 r k]

/-- The [1, 1] piece of squared residuals: Σ_r Σ_j (x0 − x2·x1)²[r, j]. -/
theorem pay4_apply :
    k0_pay4 (F := Ideal) x0 x1 x2 (ix2 (0 : Fin 1) (0 : Fin 1))
      = ∑ r : Fin 2000, ∑ j : Fin 88,
          (x0 (ix2 r j) - x2 (ix2 r j) * x1 (ix2 r j)) * (x0 (ix2 r j) - x2 (ix2 r j) * x1 (ix2 r j)) := by
  unfold k0_pay4
  exact rowsum_apply (n := 88) _ _ _ _ _ _

/-- The [1, 1] piece of squared weights: Σ_r Σ_j x2²[r, j]. -/
theorem pay5_apply :
    k0_pay5 (F := Ideal) x2 (ix2 (0 : Fin 1) (0 : Fin 1)) = ∑ r : Fin 2000, ∑ j : Fin 88, x2 (ix2 r j) * x2 (ix2 r j) := by
  unfold k0_pay5
  exact rowsum_apply (n := 88) _ _ _ _ _ _

/-- The [1, 1] piece of negative parts: Σ_r Σ_j of x0[r, j] where it is below zero, else zero. -/
theorem pay6_apply :
    k0_pay6 (F := Ideal) x0 (ix2 (0 : Fin 1) (0 : Fin 1))
      = ∑ r : Fin 2000, ∑ j : Fin 88, Scalar.select (Ideal.cmp .olt (x0 (ix2 r j)) 0) (x0 (ix2 r j)) 0 := by
  unfold k0_pay6
  refine (rowsum_apply (n := 88) _ _ _ _ _ _).trans ?_
  refine Finset.sum_congr rfl fun r _ => Finset.sum_congr rfl fun j _ => ?_
  show Scalar.select (Ideal.cmp .olt (x0 (ix2 r j)) (Ideal.ofBits .f32 0x00000000#32)) (x0 (ix2 r j))
      (Ideal.ofBits .f32 0x00000000#32) = _
  rw [Ideal.ofBits_zero_f32]

/-- The six pieces of the stored row in lane order: the 88 column sums, the four block totals, 36 zeros. -/
def pieces : List ((s : Shape) × (s.Idx → Ideal .f32)) :=
  [⟨S1x88, k0_pay3 x0⟩, ⟨S1x1, k0_pay2 x3 x4⟩, ⟨S1x1, k0_pay4 x0 x1 x2⟩, ⟨S1x1, k0_pay5 x2⟩, ⟨S1x1, k0_pay6 x0⟩,
    ⟨S1x36, k0_pay7 (F := Ideal)⟩]

/-- Lanes 0–87: the column sums of |x0|. -/
theorem lane_abs (j : Fin 88) :
    out0_5 (F := Ideal) x0 x1 x2 x3 x4 (ix2 (0 : Fin 1) (lane88 j))
      = ∑ r : Fin 2000, max (x0 (ix2 r j)) (-(x0 (ix2 r j))) := by
  rw [out0_5_eq]
  unfold k0_pay1
  refine (concatenate_apply_piece (t := S1x128) (1 : Fin 2) (pieces x0 x1 x2 x3 x4)
    concatenates_S1x88_S1x1_S1x1_S1x1_S1x1_S1x36_S1x128_d1
    (ix2 (0 : Fin 1) (lane88 j)) 0 (by show (0 : Nat) < 6; omega) S1x88 (k0_pay3 x0) rfl rfl 0 rfl
    (ix2 (0 : Fin 1) j) ?_ ?_).trans (pay3_apply x0 j)
  · intro b hb
    match b with
    | ⟨0, _⟩ => rfl
    | ⟨1, _⟩ => exact absurd rfl hb
  · show 0 + j.val = j.val
    omega

/-- Lane 88: the block's sum of (x4 − x3)² over the first five columns. -/
theorem lane_dsq :
    out0_5 (F := Ideal) x0 x1 x2 x3 x4 (ix2 (0 : Fin 1) (⟨88, by omega⟩ : Fin 128))
      = ∑ r : Fin 2000, ∑ k : Fin 5,
          (x4 (ix2 r (year k)) - x3 (ix2 r (year k))) * (x4 (ix2 r (year k)) - x3 (ix2 r (year k))) := by
  rw [out0_5_eq]
  unfold k0_pay1
  refine (concatenate_apply_piece (t := S1x128) (1 : Fin 2) (pieces x0 x1 x2 x3 x4)
    concatenates_S1x88_S1x1_S1x1_S1x1_S1x1_S1x36_S1x128_d1
    (ix2 (0 : Fin 1) (⟨88, by omega⟩ : Fin 128)) 1 (by show (1 : Nat) < 6; omega) S1x1 (k0_pay2 x3 x4) rfl rfl 88 rfl
    (ix2 (0 : Fin 1) (0 : Fin 1)) ?_ rfl).trans (pay2_apply x3 x4)
  intro b hb
  match b with
  | ⟨0, _⟩ => rfl
  | ⟨1, _⟩ => exact absurd rfl hb

/-- Lane 89: the block's sum of (x0 − x2·x1)². -/
theorem lane_rsq :
    out0_5 (F := Ideal) x0 x1 x2 x3 x4 (ix2 (0 : Fin 1) (⟨89, by omega⟩ : Fin 128))
      = ∑ r : Fin 2000, ∑ j : Fin 88,
          (x0 (ix2 r j) - x2 (ix2 r j) * x1 (ix2 r j)) * (x0 (ix2 r j) - x2 (ix2 r j) * x1 (ix2 r j)) := by
  rw [out0_5_eq]
  unfold k0_pay1
  refine (concatenate_apply_piece (t := S1x128) (1 : Fin 2) (pieces x0 x1 x2 x3 x4)
    concatenates_S1x88_S1x1_S1x1_S1x1_S1x1_S1x36_S1x128_d1
    (ix2 (0 : Fin 1) (⟨89, by omega⟩ : Fin 128)) 2 (by show (2 : Nat) < 6; omega) S1x1 (k0_pay4 x0 x1 x2) rfl rfl 89 rfl
    (ix2 (0 : Fin 1) (0 : Fin 1)) ?_ rfl).trans (pay4_apply x0 x1 x2)
  intro b hb
  match b with
  | ⟨0, _⟩ => rfl
  | ⟨1, _⟩ => exact absurd rfl hb

/-- Lane 90: the block's sum of x2². -/
theorem lane_wsq :
    out0_5 (F := Ideal) x0 x1 x2 x3 x4 (ix2 (0 : Fin 1) (⟨90, by omega⟩ : Fin 128))
      = ∑ r : Fin 2000, ∑ j : Fin 88, x2 (ix2 r j) * x2 (ix2 r j) := by
  rw [out0_5_eq]
  unfold k0_pay1
  refine (concatenate_apply_piece (t := S1x128) (1 : Fin 2) (pieces x0 x1 x2 x3 x4)
    concatenates_S1x88_S1x1_S1x1_S1x1_S1x1_S1x36_S1x128_d1
    (ix2 (0 : Fin 1) (⟨90, by omega⟩ : Fin 128)) 3 (by show (3 : Nat) < 6; omega) S1x1 (k0_pay5 x2) rfl rfl 90 rfl
    (ix2 (0 : Fin 1) (0 : Fin 1)) ?_ rfl).trans (pay5_apply x2)
  intro b hb
  match b with
  | ⟨0, _⟩ => rfl
  | ⟨1, _⟩ => exact absurd rfl hb

/-- Lane 91: the block's sum of the negative parts of x0. -/
theorem lane_neg :
    out0_5 (F := Ideal) x0 x1 x2 x3 x4 (ix2 (0 : Fin 1) (⟨91, by omega⟩ : Fin 128))
      = ∑ r : Fin 2000, ∑ j : Fin 88, Scalar.select (Ideal.cmp .olt (x0 (ix2 r j)) 0) (x0 (ix2 r j)) 0 := by
  rw [out0_5_eq]
  unfold k0_pay1
  refine (concatenate_apply_piece (t := S1x128) (1 : Fin 2) (pieces x0 x1 x2 x3 x4)
    concatenates_S1x88_S1x1_S1x1_S1x1_S1x1_S1x36_S1x128_d1
    (ix2 (0 : Fin 1) (⟨91, by omega⟩ : Fin 128)) 4 (by show (4 : Nat) < 6; omega) S1x1 (k0_pay6 x0) rfl rfl 91 rfl
    (ix2 (0 : Fin 1) (0 : Fin 1)) ?_ rfl).trans (pay6_apply x0)
  intro b hb
  match b with
  | ⟨0, _⟩ => rfl
  | ⟨1, _⟩ => exact absurd rfl hb

end Cert.Loss.Block

end
-- ==== Proof.KernelValue.lean ====
/-
  The kernel's result is the loss `total`.

  Row t of the output array is what point t stored: lane j < 88 the column sums of |G| over the point's 2000
  rows, lanes 88–91 the point's sums of (U − out)², (G − w·D)², w² and of G's negative parts.  The host
  operations add the rows up; a sum over the 100 points of sums over each point's 2000 rows is the sum over all
  200000 rows, so every term of the kernel's result is the corresponding term of `total`.
-/
import proofs.«110161_j1108101563123_1_alg».proof.Proof.TailValue
import proofs.«110161_j1108101563123_1_alg».proof.Proof.BlockRead
import proofs.«110161_j1108101563123_1_alg».proof.Proof.BlockValue

noncomputable section

open scoped BigOperators

namespace Cert.Loss.Kernel

open Idealize.ShloMosaic Idealize.ShloMosaic.TcCoe Idealize.ShloMosaic.ValueIdx Idealize.SL.Sem
open Cert.KernelIdeal Cert.KernelIdeal.Gen Cert.Loss

variable (m : (ℓ : Loc nD τ sig) → Buf (Elt Ideal) ℓ)

/-- Point number t of the grid. -/
def pt (t : Fin 100) : Fin cfg0.N := ⟨t.val, Nat.lt_of_lt_of_eq t.isLt (show 100 = cfg0.N from N_0.symm)⟩

/-- The five argument arrays the kernel reads, on core c. -/
abbrev argG (c : Dev nD) : Wide := m ((c : Thread nD τ).loc main_arg0)
abbrev argOut (c : Dev nD) : Narrow := m ((c : Thread nD τ).loc main_arg1)
abbrev argU (c : Dev nD) : Narrow := m ((c : Thread nD τ).loc main_arg2)
abbrev argD (c : Dev nD) : Wide := m ((c : Thread nD τ).loc main_arg4)
abbrev argW (c : Dev nD) : Wide := m ((c : Thread nD τ).loc main_arg5)

/-- The output array, as a [1, 12800] array of extended reals. -/
def outE (c : Dev nD) : (⟨S1x12800, .f32⟩ : BufTy).Contents (Elt Ideal) := outArr m c

/-- Column 128·t + l of the output array is lane l of what point t stored. -/
theorem outArr_col (c : Dev nD) (t : Fin 100) (l : Fin 128) :
    outE m c (col t l) = stored m c (pt t) (ix2 (0 : Fin 1) l) := by
  have hl' : l.val < 128 := l.isLt
  have hp : ptOf (col t l) = pt t := Fin.ext (by
    show (128 * t.val + l.val) / 128 = t.val
    omega)
  have hl : laneOf (col t l) = ix2 (0 : Fin 1) l := by
    funext a
    apply Fin.ext
    match a with
    | ⟨0, _⟩ => rfl
    | ⟨1, _⟩ => show (128 * t.val + l.val) % 128 = l.val; omega
  unfold outE outArr
  rw [hp, hl]

/-- Lanes 0–87 added over the points: the column sums of |G| over all rows. -/
theorem part_abs (c : Dev nD) (j : Fin 88) :
    ∑ t : Fin 100, outE m c (col t (lane88 j)) = ∑ i : Fin 200000, absG (argG m c) i j := by
  rw [sum_rows_blocks]
  refine Finset.sum_congr rfl fun t _ => ?_
  rw [outArr_col]
  unfold stored
  refine (Block.lane_abs (gblk m c (pt t)) (dblk m c (pt t)) (wblk m c (pt t)) (oblk m c (pt t)) (ublk m c (pt t)) j).trans ?_
  refine Finset.sum_congr rfl fun r _ => ?_
  rw [gblk_apply m c (pt t) r j]
  rfl

/-- Lane 88 added over the points: Σ (U − out)² over all rows. -/
theorem part_dsq (c : Dev nD) :
    ∑ t : Fin 100, outE m c (col t ⟨88, by omega⟩) = ∑ i : Fin 200000, ∑ k : Fin 5, dsq (argOut m c) (argU m c) i k := by
  rw [sum_rows_blocks]
  refine Finset.sum_congr rfl fun t _ => ?_
  rw [outArr_col]
  unfold stored
  refine (Block.lane_dsq (gblk m c (pt t)) (dblk m c (pt t)) (wblk m c (pt t)) (oblk m c (pt t)) (ublk m c (pt t))).trans ?_
  refine Finset.sum_congr rfl fun r _ => Finset.sum_congr rfl fun j _ => ?_
  rw [ublk_apply m c (pt t) r (year j), oblk_apply m c (pt t) r (year j)]
  rfl

/-- Lane 89 added over the points: Σ (G − w·D)² over all rows. -/
theorem part_rsq (c : Dev nD) :
    ∑ t : Fin 100, outE m c (col t ⟨89, by omega⟩) = ∑ i : Fin 200000, ∑ j : Fin 88, rsq (argG m c) (argD m c) (argW m c) i j := by
  rw [sum_rows_blocks]
  refine Finset.sum_congr rfl fun t _ => ?_
  rw [outArr_col]
  unfold stored
  refine (Block.lane_rsq (gblk m c (pt t)) (dblk m c (pt t)) (wblk m c (pt t)) (oblk m c (pt t)) (ublk m c (pt t))).trans ?_
  refine Finset.sum_congr rfl fun r _ => Finset.sum_congr rfl fun j _ => ?_
  rw [gblk_apply m c (pt t) r j, wblk_apply m c (pt t) r j, dblk_apply m c (pt t) r j]
  rfl

/-- Lane 90 added over the points: Σ w² over all rows. -/
theorem part_wsq (c : Dev nD) :
    ∑ t : Fin 100, outE m c (col t ⟨90, by omega⟩) = ∑ i : Fin 200000, ∑ j : Fin 88, wsq (argW m c) i j := by
  rw [sum_rows_blocks]
  refine Finset.sum_congr rfl fun t _ => ?_
  rw [outArr_col]
  unfold stored
  refine (Block.lane_wsq (gblk m c (pt t)) (dblk m c (pt t)) (wblk m c (pt t)) (oblk m c (pt t)) (ublk m c (pt t))).trans ?_
  refine Finset.sum_congr rfl fun r _ => Finset.sum_congr rfl fun j _ => ?_
  rw [wblk_apply m c (pt t) r j]
  rfl

/-- Lane 91 added over the points: the sum of G's negative parts over all rows. -/
theorem part_neg (c : Dev nD) :
    ∑ t : Fin 100, outE m c (col t ⟨91, by omega⟩) = ∑ i : Fin 200000, ∑ j : Fin 88, negG (argG m c) i j := by
  rw [sum_rows_blocks]
  refine Finset.sum_congr rfl fun t _ => ?_
  rw [outArr_col]
  unfold stored
  refine (Block.lane_neg (gblk m c (pt t)) (dblk m c (pt t)) (wblk m c (pt t)) (oblk m c (pt t)) (ublk m c (pt t))).trans ?_
  refine Finset.sum_congr rfl fun r _ => Finset.sum_congr rfl fun j _ => ?_
  rw [gblk_apply m c (pt t) r j]
  rfl

/-- The kernel's result, at Ideal, is the loss. -/
theorem kernel_value (c : Dev nD) :
    tail (outArr m c) ix0 = total (argOut m c) (argU m c) (argG m c) (argD m c) (argW m c) := by
  show tail (outE m c) ix0 = _
  rw [tail_value]
  have hlog : (∑ j : Fin 88, Ideal.log (∑ t : Fin 100, outE m c (col t (lane88 j))))
      = ∑ j : Fin 88, Ideal.log (∑ i : Fin 200000, absG (argG m c) i j) :=
    Finset.sum_congr rfl fun j _ => congrArg Ideal.log (part_abs m c j)
  rw [hlog, part_dsq, part_rsq, part_wsq, part_neg]
  rfl

end Cert.Loss.Kernel

end
-- ==== Proof.RefValue.lean ====
/-
  The reference's result is the loss `total`.

  Each of the reference's five terms is read through its stages: the sums over a rank-2 index set become double
  sums over rows and columns, the host's absolute value is max x (−x), its logarithm the ideal logarithm, and each
  host sum starts from the zero word.  The last term is Σ (neg · c₂), the negative parts multiplied one by one;
  G's entries being real, so are its negative parts, and the real constant c₂ = 100 moves across the sum.
-/
import proofs.«110161_j1108101563123_1_alg».proof.Proof.Gen.ReferenceIdeal.Read
import proofs.«110161_j1108101563123_1_alg».proof.Proof.Sums
import Idealize.ShloMosaic.PureOps.Ideal.Laws

noncomputable section

open scoped BigOperators

namespace Cert.Loss.Ref

open Idealize.ShloMosaic Idealize.ShloMosaic.TcCoe Idealize.ShloMosaic.ValueIdx
open Cert.ReferenceIdeal Cert.ReferenceIdeal.Read Cert.Loss Cert.Lib

variable (G D w : Wide) (out U : Narrow)

/-- Σ (U − out)² over the first five columns. -/
theorem sum_dsq : ∑ j : S200000x5.Idx, val_main_v3 (F := Ideal) out U j = ∑ i : Fin 200000, ∑ k : Fin 5, dsq out U i k := by
  rw [sum_idx2]
  refine Finset.sum_congr rfl fun i _ => Finset.sum_congr rfl fun k _ => ?_
  rw [val_main_v3_apply, val_main_v2_apply, val_main_v0_apply, val_main_v1_apply]
  have e0 : idx_main_v0 (ix2 i k) = ix2 i (year k) := funext fun a => Fin.ext (by match a with | ⟨0, _⟩ => rfl | ⟨1, _⟩ => rfl)
  have e1 : idx_main_v1 (ix2 i k) = ix2 i (year k) := funext fun a => Fin.ext (by match a with | ⟨0, _⟩ => rfl | ⟨1, _⟩ => rfl)
  rw [e0, e1]
  rfl

/-- Σ_j log Σ_i |G|. -/
theorem sum_log : ∑ j : S88.Idx, val_main_v7 (F := Ideal) G j = ∑ j : Fin 88, Ideal.log (∑ i : Fin 200000, absG G i j) := by
  rw [sum_idx1]
  refine Finset.sum_congr rfl fun j _ => ?_
  rw [val_main_v7_apply, Ideal.hostUnary_log_def, val_main_v6_apply, val_main_cst_0_apply, Ideal.ofBits_def,
    Ideal.ofBits_zero_f32, zero_add]
  refine congrArg Ideal.log (Finset.sum_congr rfl fun i _ => ?_)
  rw [val_main_v5_apply]
  have e : idx_main_v6 (ix1 j) i = ix2 i j := funext fun a => Fin.ext (by match a with | ⟨0, _⟩ => rfl | ⟨1, _⟩ => rfl)
  rw [e]
  rfl

/-- Σ (G − w·D)². -/
theorem sum_rsq : ∑ j : S200000x88.Idx, val_main_v13 (F := Ideal) G D w j = ∑ i : Fin 200000, ∑ j : Fin 88, rsq G D w i j := by
  rw [sum_idx2]
  refine Finset.sum_congr rfl fun i _ => Finset.sum_congr rfl fun j _ => ?_
  rw [val_main_v13_apply, val_main_v12_apply, val_main_v11_apply]
  rfl

/-- Σ w². -/
theorem sum_wsq : ∑ j : S200000x88.Idx, val_main_v17 (F := Ideal) w j = ∑ i : Fin 200000, ∑ j : Fin 88, wsq w i j := by
  rw [sum_idx2]
  refine Finset.sum_congr rfl fun i _ => Finset.sum_congr rfl fun j _ => ?_
  rw [val_main_v17_apply]
  rfl

/-- The negative part of a real entry is real. -/
theorem negG_real (hG : ∀ i, ∃ x : ℝ, G i = (x : EReal)) (i : Fin 200000) (j : Fin 88) : ∃ r : ℝ, negG G i j = (r : EReal) := by
  unfold negG
  rcases BitVec.eq_zero_or_eq_one (Ideal.cmp .olt (G (ix2 i j)) 0) with h | h
  · rw [h, select_zero]; exact ⟨0, rfl⟩
  · rw [h, select_one]; exact hG _

/-- Σ (neg · c₂) = (Σ neg) · c₂, the entries of G being real. -/
theorem sum_neg (hG : ∀ i, ∃ x : ℝ, G i = (x : EReal)) :
    ∑ j : S200000x88.Idx, val_main_v25 (F := Ideal) G j = (∑ i : Fin 200000, ∑ j : Fin 88, negG G i j) * c₂ := by
  rw [sum_idx2]
  have hterm : ∀ (i : Fin 200000) (j : Fin 88), val_main_v25 (F := Ideal) G (ix2 i j) = negG G i j * c₂ := fun i j => by
    rw [val_main_v25_apply, val_main_v23_apply, val_main_v22_apply, val_main_v21_apply, val_main_cst_7_apply,
      val_main_call0_v1_apply, val_main_call0_v0_apply, val_main_cst_8_apply, val_main_v24_apply, val_main_cst_9_apply]
    simp only [Ideal.ofBits_def, Ideal.ofBits_zero_f32]
    rfl
  simp only [hterm]
  choose g hg using negG_real G hG
  simp only [hg, c₂_eq]
  rw [← Fintype.sum_prod_type' (fun (i : Fin 200000) (j : Fin 88) => ((g i j : ℝ) : EReal) * ((100 : ℝ) : EReal)),
    ← Fintype.sum_prod_type' (fun (i : Fin 200000) (j : Fin 88) => ((g i j : ℝ) : EReal))]
  exact (sum_coe_mul Finset.univ (fun p : Fin 200000 × Fin 88 => g p.1 p.2) 100).symm

/-- The reference's result, at Ideal, is the loss. -/
theorem ref_value (hG : ∀ i, ∃ x : ℝ, G i = (x : EReal)) :
    val_main_v27 (F := Ideal) G out U D w ix0 = total out U G D w := by
  rw [val_main_v27_apply, val_main_v20_apply, val_main_v16_apply, val_main_v10_apply, val_main_v4_apply,
    val_main_v9_apply, val_main_v8_apply, val_main_v15_apply, val_main_v14_apply, val_main_v19_apply,
    val_main_v18_apply, val_main_v26_apply]
  rw [sum_dsq, sum_log, sum_rsq, sum_wsq, sum_neg G hG]
  simp only [val_main_cst_apply, val_main_cst_1_apply, val_main_cst_2_apply, val_main_cst_3_apply, val_main_cst_4_apply,
    val_main_cst_5_apply, val_main_cst_6_apply, val_main_cst_10_apply, Ideal.ofBits_def, Ideal.ofBits_zero_f32, zero_add,
    Ideal.addf_def, Ideal.mulf_def]
  rfl

end Cert.Loss.Ref

end
-- ==== Proof.Finite.lean ====
/-
  Under the precondition every entry of the first argument array G is a real number.

  The precondition is the conjunction, argument by argument, of "every entry's absolute value is below +∞";
  the conjunct for G is the innermost one of the chain of `and`s.  An extended real whose absolute value
  max x (−x) is below +∞ is neither +∞ nor −∞, hence a real.
-/
import proofs.«110161_j1108101563123_1_alg».proof.Pre_finite_inputs
import proofs.«110161_j1108101563123_1_alg».proof.Proof.Gen.Pre_finite_inputs
import Idealize.ShloMosaic.PureOps.Ideal
import Idealize.ShloMosaic.Lib.ValueIdx
import Idealize.ShloMosaic.Lib.ReduceAll

noncomputable section

namespace Cert.Loss

open Idealize.ShloMosaic Idealize.ShloMosaic.ValueIdx Cert.Pre_finite_inputs

/-- The shape of rank 0 has exactly one index. -/
instance subsingleton_scalar_idx : Subsingleton S_.Idx := ⟨fun a b => funext fun d => d.elim0⟩

/-- A scalar broadcast to any shape reads, at every index, as the scalar's one entry. -/
theorem broadcast_scalar_apply {α : Type} {t : Shape} (dims : Fin S_.rank → Fin t.rank) (hb : S_.BroadcastsInDim t dims)
    (x : S_.Idx → α) (j : t.Idx) : broadcastInDim t dims hb x j = x ValueIdx.ix0 := by
  unfold broadcastInDim
  exact congrArg x (Subsingleton.elim _ _)

/-- An extended real whose absolute value max x (−x) compares below the pattern of +∞ is a real number. -/
theorem real_of_abs_lt_inf (x : Ideal .f32)
    (hx : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at hx
  rw [htop] at hx
  unfold Ideal.cmp at hx
  induction x using EReal.rec with
  | bot => simp at hx
  | coe r => exact ⟨r, rfl⟩
  | top => simp at hx

/-- If the precondition evaluates to all ones on the six argument arrays, every entry of the first is real. -/
theorem G_real [Cert.Pre_finite_inputs.Facts]
    (a0 : FVec Ideal S200000x88 .f32) (a1 a2 a3 : FVec Ideal S200000x6 .f32) (a4 a5 : FVec Ideal S200000x88 .f32)
    (h : Cert.Pre_finite_inputs.fn (F := Ideal) a0 a1 a2 a3 a4 a5 = fun _ => 1#1) :
    ∀ i : S200000x88.Idx, ∃ x : ℝ, a0 i = (x : EReal) := by
  intro i
  have h0 := congrFun h ValueIdx.ix0
  dsimp only [fn, fn_part1] at h0
  -- the chain of five conjunctions, peeled from the outside; the first argument's conjunct is the innermost left one
  have h23 := (IntOp.andi_eq_one.1 h0).1
  have h18 := (IntOp.andi_eq_one.1 h23).1
  have h13 := (IntOp.andi_eq_one.1 h18).1
  have h8 := (IntOp.andi_eq_one.1 h13).1
  have h3 := (IntOp.andi_eq_one.1 h8).1
  -- "all entries" read back at the entry i
  have hi := Host.reduce_andi_all _ _ _ _ _ h3 i
  rw [cmpf_apply] at hi
  refine real_of_abs_lt_inf (a0 i) ?_
  rw [broadcast_scalar_apply, constant_apply] at hi
  exact hi

end Cert.Loss

end
-- ==== Proof.lean ====
/-
  The certificate of a loss kernel against its jnp reference, at the ideal (extended-real) reading of floats.

  Both programs compute, from G, D, w : [200000, 88] and out, U : [200000, 6],

      Σ_{i, k<5} (U − out)² + c₁ · Σ_{j<88} log (Σ_i |G|) + (Σ (G − w·D)²) · c₂ + (Σ w²) · c₃ + (Σ neg(G)) · c₂

  (`Cert.Loss.total`, Proof/Spec.lean), with the same three constant words.  The kernel runs a grid of 100 points,
  each reducing 2000 rows to a row of 128 lanes (Proof/BlockValue.lean), writes the rows side by side into a
  [1, 12800] array (Proof/OutArray.lean), and adds the rows up on the host (Proof/KernelRun.lean,
  Proof/TailValue.lean); the sums over blocks of sums over a block's rows are the sums over all rows
  (Proof/KernelValue.lean).  The reference sums over all rows at once and multiplies each negative part by c₂
  before adding (Proof/RefValue.lean); the precondition makes G's entries real (Proof/Finite.lean), so the real
  constant c₂ = 100 moves across that sum.  The three frames are the generated ones; the idealization rewrote
  nothing, so there is nothing to preserve.
-/
import proofs.«110161_j1108101563123_1_alg».proof.Defs
import proofs.«110161_j1108101563123_1_alg».proof.Proof.Gen.Kernel
import proofs.«110161_j1108101563123_1_alg».proof.Proof.Gen.Kernel.Skeleton
import proofs.«110161_j1108101563123_1_alg».proof.Proof.Gen.Kernel.Launch
import proofs.«110161_j1108101563123_1_alg».proof.Proof.Gen.Kernel.Points
import proofs.«110161_j1108101563123_1_alg».proof.Proof.Gen.Kernel.Frame
import proofs.«110161_j1108101563123_1_alg».proof.Proof.Gen.KernelIdeal
import proofs.«110161_j1108101563123_1_alg».proof.Proof.Gen.KernelIdeal.Skeleton
import proofs.«110161_j1108101563123_1_alg».proof.Proof.Gen.KernelIdeal.Launch
import proofs.«110161_j1108101563123_1_alg».proof.Proof.Gen.KernelIdeal.Points
import proofs.«110161_j1108101563123_1_alg».proof.Proof.Gen.KernelIdeal.Frame
import proofs.«110161_j1108101563123_1_alg».proof.Proof.Gen.ReferenceIdeal
import proofs.«110161_j1108101563123_1_alg».proof.Proof.Gen.ReferenceIdeal.Run
import proofs.«110161_j1108101563123_1_alg».proof.Proof.Gen.ReferenceIdeal.Read
import proofs.«110161_j1108101563123_1_alg».proof.Proof.Gen.Pre_finite_inputs
import proofs.«110161_j1108101563123_1_alg».proof.Proof.KernelValue
import proofs.«110161_j1108101563123_1_alg».proof.Proof.RefValue
import proofs.«110161_j1108101563123_1_alg».proof.Proof.Finite
import Idealize.ShloMosaic.Adequacy
import Idealize.ShloMosaic.Init

noncomputable section

namespace Cert.Proof

open Idealize.ShloMosaic Idealize.ShloMosaic.ValueIdx Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the loss `total` of the arguments:
    the kernel by its run and `kernel_value`, the reference by its run and `ref_value`, G's entries real by the
    precondition. -/
theorem algebraic : Cert.algebraic_KernelIdeal_ReferenceIdeal := by
  intro m ρ m' ρ' hpre hagree
  refine ⟨fun c => Cert.Loss.Kernel.tail (Cert.Loss.Kernel.outArr m c), Cert.Loss.Kernel.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, -, h4, h5⟩ := hagree c
  rw [Cert.ReferenceIdeal.Read.val_main_v27_eq, h0, h1, h2, h4, h5]
  have hG := Cert.Loss.G_real _ _ _ _ _ _ (hpre c)
  funext i
  obtain rfl : i = ix0 := eq_ix0 i
  exact (Cert.Loss.Ref.ref_value (Cert.Loss.Kernel.argG m c) (Cert.Loss.Kernel.argD m c) (Cert.Loss.Kernel.argW m c)
    (Cert.Loss.Kernel.argOut m c) (Cert.Loss.Kernel.argU m c) hG).trans (Cert.Loss.Kernel.kernel_value m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
